-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S4x10000x256 : S_.BroadcastsInDim S4x10000x256 (![] : Fin 0 → Fin S4x10000x256.rank)
  reducesTo_S4x10000x256_S_d0_1_2 : S4x10000x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x256 .f32) (main_arg5 : FVec F S256x64 .f32) (main_arg6 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x10000x256 .f32) (main_arg1 : FVec F S256x256 .f32) (main_arg2 : FVec F S256x256 .f32) (main_arg3 : FVec F S256x256 .f32) (main_arg4 : FVec F S256x256 .f32) (main_arg5 : FVec F S256x64 .f32) (main_arg6 : FVec F S64 .f32) : IVec S_ 1 :=
  let main_v0 : FVec F S4x10000x256 .f32 := Host.absf main_arg0
  let main_cst : FVec F S_ .f32 := constant S_ .f32 0x7F800000#32
  let main_v1 : FVec F S4x10000x256 .f32 := broadcastInDim S4x10000x256 ![] bcast_S_S4x10000x256 main_cst
  let main_v2 : IVec S4x10000x256 1 := cmpf .olt main_v0 main_v1
  let main_c : IVec S_ 1 := constantI S_ 1 1#1
  let main_v3 : IVec S_ 1 := (fun x v => Host.reduce IntOp.andi x v reducesTo_S4x10000x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S1x64 : Shape := ⟨2, ![1, 64]⟩
abbrev S4x64x10000 : Shape := ⟨3, ![4, 64, 10000]⟩
abbrev S1x5000x256 : Shape := ⟨3, ![1, 5000, 256]⟩
abbrev S1x64x10000 : Shape := ⟨3, ![1, 64, 10000]⟩
abbrev S10000x256 : Shape := ⟨2, ![10000, 256]⟩
abbrev S5000x256 : Shape := ⟨2, ![5000, 256]⟩
abbrev S64x10000 : Shape := ⟨2, ![64, 10000]⟩
abbrev S64x1 : Shape := ⟨2, ![64, 1]⟩
abbrev S4x10000x64 : Shape := ⟨3, ![4, 10000, 64]⟩

abbrev nBuf : Space → Nat
  | .hbm => 11
  | .vmem => 11
  | .smem => 0
  | _ => 0

abbrev bufTy : (tb : Table) → Fin (tcTables nBuf tb) → BufTy
  | .hbm, ⟨0, _⟩ => ⟨S4x10000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x64, .f32⟩
  | .hbm, ⟨6, _⟩ => ⟨S64, .f32⟩
  | .hbm, ⟨7, _⟩ => ⟨S64x256, .f32⟩
  | .hbm, ⟨8, _⟩ => ⟨S1x64, .f32⟩
  | .hbm, ⟨9, _⟩ => ⟨S4x64x10000, .f32⟩
  | .hbm, ⟨10, _⟩ => ⟨S4x10000x64, .f32⟩
  | .local _ .vmem, ⟨0, _⟩ => ⟨S1x5000x256, .f32⟩
  | .local _ .vmem, ⟨1, _⟩ => ⟨S1x5000x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S64x256, .f32⟩
  | .local _ .vmem, ⟨7, _⟩ => ⟨S1x64, .f32⟩
  | .local _ .vmem, ⟨8, _⟩ => ⟨S1x64x10000, .f32⟩
  | .local _ .vmem, ⟨9, _⟩ => ⟨S1x64x10000, .f32⟩
  | .local _ .vmem, ⟨10, _⟩ => ⟨S10000x256, .bf16⟩
  | _, _ => ⟨S4x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg1 : BitVec 32 := BitVec.ofNat 32 (i 1).val
  let c5000_i32 : BitVec 32 := 5000#32
  let v25 : BitVec 32 := Scalar.muli arg1 c5000_i32
  let v26 : Index := Scalar.indexCast v25
  let c0_16 : Index := 0#32
  ![v26.toNat, 0]
def k0_cond1 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32 : BitVec 32 := 0#32
  let v32 : BitVec 1 := Scalar.cmpi .ne v31 c0_i32
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S256x64_S64x256_1_0 : S256x64.Transposes [1, 0] S64x256
  shapeCasts_S64_S1x64 : S64.ShapeCasts S1x64
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  h_S5000x256 : 0 < S5000x256.numel
  shapeCasts_S5000x256_S5000x256 : S5000x256.ShapeCasts S5000x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S10000x256_S10000x256_0_0 : ∀ a, (![0, 0] : Fin 2 → Nat) a + S10000x256.size a ≤ S10000x256.size a
  h_S10000x256 : 0 < S10000x256.numel
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S64_S64x1 : S64.ShapeCasts S64x1
  broadcasts_S64x1_S64x10000 : S64x1.Broadcasts S64x10000
  inb_S1x64x10000_S1x64x10000_0_0_0 : ∀ a, (![0, 0, 0] : Fin 3 → Nat) a + S1x64x10000.size a ≤ S1x64x10000.size a
  h_S1x64x10000 : 0 < S1x64x10000.numel
  shapeCasts_S1x64x10000_S64x10000 : S1x64x10000.ShapeCasts S64x10000
  shapeCasts_S64x10000_S1x64x10000 : S64x10000.ShapeCasts S1x64x10000
  transposes_S4x64x10000_S4x10000x64_0_2_1 : S4x64x10000.Transposes [0, 2, 1] S4x10000x64
  dot_S5000x256_S256x256_S5000x256_1_0_0_1_n_n_wf : DotDims.WF S5000x256 S256x256 S5000x256 [1] [0] [0] [1] [] []
  dot_S64x256_S10000x256_S64x10000_1_1_0_0_n_n_wf : DotDims.WF S64x256 S10000x256 S64x10000 [1] [1] [0] [0] [] []
  hrank0 : 0 < grid0.rank
  k0_off1_inb : ∀ i : grid0.Coords, ∀ a, (k0_off1 i) a + S5000x256.size a ≤ S10000x256.size a
  k0_off1_packedbf16 : ∀ i : grid0.Coords, (Rect.unit (s := S10000x256) (k0_off1 i) S5000x256.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S4x10000x256.size a
  hwx0_0 : ∀ i : grid0.Coords, EltTy.bits .f32 = 32 ∨ (Rect.block (s := S4x10000x256) S1x5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x10000.size a ≤ S4x64x10000.size a
  hwx0_7 : ∀ i : grid0.Coords, EltTy.bits .f32 = 32 ∨ (Rect.block (s := S4x64x10000) S1x64x10000.size (cc0_transform_7 i) (hinb0_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S64x256_S10000x256_S64x10000_1_1_0_0_n_n : DotDims S64x256 S10000x256 S64x10000 where
  lhsContracting := [1]
  rhsContracting := [1]
  lhsNonContracting := [0]
  rhsNonContracting := [0]
  lhsBatch := []
  rhsBatch := []
  wf := dot_S64x256_S10000x256_S64x10000_1_1_0_0_n_n_wf

abbrev win0_0 : Pipeline.Window sig grid0 :=
  Pipeline.Window.ofSpec (Memref.whole main_arg0) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S_ : Shape := ⟨0, ![]⟩
abbrev S4x10000x64 : Shape := ⟨3, ![4, 10000, 64]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x10000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x64, .f32⟩
  | .hbm, ⟨6, _⟩ => ⟨S64, .f32⟩
  | .hbm, ⟨7, _⟩ => ⟨S4x10000x256, .f32⟩
  | .hbm, ⟨8, _⟩ => ⟨S_, .f32⟩
  | .hbm, ⟨9, _⟩ => ⟨S4x10000x256, .f32⟩
  | .hbm, ⟨10, _⟩ => ⟨S4x10000x256, .f32⟩
  | .hbm, ⟨11, _⟩ => ⟨S4x10000x256, .f32⟩
  | .hbm, ⟨12, _⟩ => ⟨S_, .f32⟩
  | .hbm, ⟨13, _⟩ => ⟨S4x10000x256, .f32⟩
  | .hbm, ⟨14, _⟩ => ⟨S4x10000x256, .f32⟩
  | .hbm, ⟨15, _⟩ => ⟨S4x10000x256, .f32⟩
  | .hbm, ⟨16, _⟩ => ⟨S_, .f32⟩
  | .hbm, ⟨17, _⟩ => ⟨S4x10000x256, .f32⟩
  | .hbm, ⟨18, _⟩ => ⟨S4x10000x256, .f32⟩
  | .hbm, ⟨19, _⟩ => ⟨S4x10000x256, .f32⟩
  | .hbm, ⟨20, _⟩ => ⟨S4x10000x64, .f32⟩
  | .hbm, ⟨21, _⟩ => ⟨S1x1x64, .f32⟩
  | .hbm, ⟨22, _⟩ => ⟨S4x10000x64, .f32⟩
  | .hbm, ⟨23, _⟩ => ⟨S4x10000x64, .f32⟩
  | _, _ => ⟨S4x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_call1_cst : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_call2_cst : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S_S4x10000x256 : S_.BroadcastsInDim S4x10000x256 (![] : Fin 0 → Fin S4x10000x256.rank)
  bcast_S64_S1x1x64_2 : S64.BroadcastsInDim S1x1x64 (![2] : Fin 1 → Fin S1x1x64.rank)
  bcast_S1x1x64_S4x10000x64_0_1_2 : S1x1x64.BroadcastsInDim S4x10000x64 (![0, 1, 2] : Fin 3 → Fin S4x10000x64.rank)
  dot_S4x10000x256_S256x256_S4x10000x256_2_0_01_1_n_n_wf : DotDims.WF S4x10000x256 S256x256 S4x10000x256 [2] [0] [0, 1] [1] [] []
  dot_S4x10000x256_S256x64_S4x10000x64_2_0_01_1_n_n_wf : DotDims.WF S4x10000x256 S256x64 S4x10000x64 [2] [0] [0, 1] [1] [] []

variable [Facts₀]

def dot_S4x10000x256_S256x256_S4x10000x256_2_0_01_1_n_n : DotDims S4x10000x256 S256x256 S4x10000x256 where
  lhsContracting := [2]
  rhsContracting := [0]
  lhsNonContracting := [0, 1]
  rhsNonContracting := [1]
  lhsBatch := []
  rhsBatch := []
  wf := dot_S4x10000x256_S256x256_S4x10000x256_2_0_01_1_n_n_wf
def dot_S4x10000x256_S256x64_S4x10000x64_2_0_01_1_n_n : DotDims S4x10000x256 S256x64 S4x10000x64 where
  lhsContracting := [2]
  rhsContracting := [0]
  lhsNonContracting := [0, 1]
  rhsNonContracting := [1]
  lhsBatch := []
  rhsBatch := []
  wf := dot_S4x10000x256_S256x64_S4x10000x64_2_0_01_1_n_n_wf

class Facts : Prop extends Facts₀ where

variable [Facts]
-- ==== Proof.CarriedB.lean ====
import proofs.«176054_g49924699848964_cont_8to1_c_527_19_alg».proof.Proof.Gen.Kernel.Frame
import proofs.«176054_g49924699848964_cont_8to1_c_527_19_alg».proof.Proof.Gen.Kernel.Skeleton
import Idealize.ShloMosaic.Lib.WritesUnit
import Idealize.ShloMosaic.Lib.Pipeline.Value
import Idealize.ShloMosaic.Lib.ValueIdx

/-!
  What the kernel carries from one grid point to the next.

  The grid is 4 × 2: point `t` is batch `t / 2`, half `t % 2`. Every point computes the hidden state of its 5000
  nodes and stores it into rows `[5000·(t % 2), 5000·(t % 2) + 5000)` of a 10000-row buffer that lives across
  points. At the second half of a batch the buffer therefore holds the batch's whole hidden state — its lower rows
  from the point before, its upper rows from the point itself — and only there the scores are computed from it and
  stored into the output block, which the pipeline writes back after exactly those points.
-/

set_option maxRecDepth 16384

noncomputable section

namespace Cert.Kernel.Carried

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule in closed form -/

/-- The branch that computes the scores is taken exactly at the odd points (the second half of a batch). -/
theorem cond_iff : ∀ t : Fin cfg0.N, k0_cond1 (grid0.coords t) = 1#1 ↔ t.val % 2 = 1 :=
  (by decide +kernel : ∀ t : Fin grid0.N, k0_cond1 (grid0.coords t) = 1#1 ↔ t.val % 2 = 1)

/-- The rows a point stores its hidden state into start at `5000 · (t % 2)`. -/
theorem off_eq : ∀ t : Fin cfg0.N, k0_off1 (grid0.coords t) = ![5000 * (t.val % 2), 0] :=
  (by decide +kernel : ∀ t : Fin grid0.N, k0_off1 (grid0.coords t) = ![5000 * (t.val % 2), 0])

/-- The inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output block is stored into at the odd points only; at the even ones it is idle and not written back. -/
theorem live7_odd : ∀ t : Fin cfg0.N, t.val % 2 = 1 → cfg0.idle 7 (grid0.coords t) = false := by decide +kernel
theorem idle7_even : ∀ t : Fin cfg0.N, ¬ t.val % 2 = 1 → cfg0.idle 7 (grid0.coords t) = true := by decide +kernel
theorem noFlush7_even : ∀ t : Fin cfg0.N, ¬ t.val % 2 = 1 → (cfg0.win 7).flush t = false := by decide +kernel

/-! ## The staging buffers at a point, and the carried buffer -/

abbrev ms0 (t : Fin cfg0.N) : Memref sig .tc .vmem S1x5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64x10000 .f32 := win0_7.stage (cfg0.slots t 7)
abbrev hs7 (t : Fin cfg0.N) : (ms7 t).IsWhole := hstage0_7 ((cfg0.slots t 7).cast nbuf0_7)
/-- The buffer of hidden states, which lives across the points. -/
abbrev scM : Memref sig .tc .vmem S10000x256 .bf16 := Memref.whole cc0_scratch0
abbrev hscM : (scM).IsWhole := Memref.isWhole_whole _

/-- What the pipeline hands the body beside the windows: the carried buffer at some contents, and the generator
    register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The zero offsets, however many axes. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A whole-block load of a whole buffer returns the buffer's contents. -/
theorem load_whole {S : Shape} {e : EltTy} (a : Memref sig .tc .vmem S e) (ha : a.IsWhole) (x : Vec F S e)
    {off : Fin S.rank → Nat} (hz : off = fun _ => 0) (inb : ∀ a, off a + S.size a ≤ S.size a) :
    View.readAt (Elt F) a.view (Rect.unit (s := S) off S.size inb).toLoadRect (ha.unread x) = x := by
  rw [View.readAt_eq_ld, ha.read_unread, View.ld_unit_zero (S := S) hz]

/-! ## The carried buffer after a point's store -/

/-- The carried buffer, found at `xs`, after hidden state `p` is stored into the point's rows: read through the
    buffer's own view. -/
def scAfter (i : grid0.Coords) (arg10 : Memref sig .tc .vmem S10000x256 .bf16) (harg10 : arg10.IsWhole)
    (xs : Vec F S10000x256 .bf16) (p : Vec F S5000x256 .bf16) : Vec F S10000x256 .bf16 :=
  arg10.view.read (Elt F) (arg10.view.writes (Elt F) (harg10.unread xs)
    [⟨Rect.unit (s := S10000x256) (k0_off1 i) S5000x256.size (k0_off1_inb i), p⟩])

/-- In the stored rows it holds the hidden state just stored, -/
theorem scAfter_hit (i : grid0.Coords) (arg10 : Memref sig .tc .vmem S10000x256 .bf16) (harg10 : arg10.IsWhole)
    (xs : Vec F S10000x256 .bf16) (p : Vec F S5000x256 .bf16) (o : ℕ) (ho : k0_off1 i = ![o, 0])
    (y : S10000x256.Idx) (x : S5000x256.Idx) (h0 : (y 0).val = o + (x 0).val) (h1 : (y 1).val = (x 1).val) :
    scAfter i arg10 harg10 xs p y = p x :=
  View.read_writes_cons_rows_of_mem arg10.view (harg10.unread xs) (k0_off1_inb i) p [] y x ho h0 h1

/-- and in every other row what it held before. -/
theorem scAfter_miss (i : grid0.Coords) (arg10 : Memref sig .tc .vmem S10000x256 .bf16) (harg10 : arg10.IsWhole)
    (xs : Vec F S10000x256 .bf16) (p : Vec F S5000x256 .bf16) (o : ℕ) (ho : k0_off1 i = ![o, 0])
    (y : S10000x256.Idx) (h : (y 0).val < o ∨ o + 5000 ≤ (y 0).val) :
    scAfter i arg10 harg10 xs p y = xs y := by
  unfold scAfter
  rw [View.read_writes_cons_rows_of_not_mem arg10.view (harg10.unread xs) (k0_off1_inb i) p [] y ho rfl h,
    View.writes_nil, harg10.read_unread]

/-! ## What each point computes, as functions of the input blocks -/

variable (m : (ℓ : Loc nD τ sig) → Buf (Elt F) ℓ)

/-- The input windows' blocks at a point, at their literal types. -/
abbrev blk0 (c : Dev nD) (t : Fin cfg0.N) : Vec F S1x5000x256 .f32 := iblk m c 0 t
abbrev blk1 (c : Dev nD) (t : Fin cfg0.N) : Vec F S256x256 .f32 := iblk m c 1 t
abbrev blk2 (c : Dev nD) (t : Fin cfg0.N) : Vec F S256x256 .f32 := iblk m c 2 t
abbrev blk3 (c : Dev nD) (t : Fin cfg0.N) : Vec F S256x256 .f32 := iblk m c 3 t
abbrev blk4 (c : Dev nD) (t : Fin cfg0.N) : Vec F S256x256 .f32 := iblk m c 4 t
abbrev blk5 (c : Dev nD) (t : Fin cfg0.N) : Vec F S64x256 .f32 := iblk m c 5 t
abbrev blk6 (c : Dev nD) (t : Fin cfg0.N) : Vec F S1x64 .f32 := iblk m c 6 t

/-- The hidden state of the 5000 nodes of point `t`. -/
def hid (c : Dev nD) (t : Fin cfg0.N) : Vec F S5000x256 .bf16 :=
  k0_pay1 (blk0 m c t) (blk1 m c t) (blk2 m c t) (blk3 m c t) (blk4 m c t)

/-- The point before `t` (itself at the first point, where nothing reads it). -/
abbrev prev (t : Fin cfg0.N) : Fin cfg0.N := ⟨t.val - 1, Nat.lt_of_le_of_lt (Nat.sub_le _ _) t.isLt⟩

/-- The whole batch's hidden state as an odd point finds it after its own store: the lower 5000 rows are the point
    before's, the upper 5000 its own. -/
def hidBoth (c : Dev nD) (t : Fin cfg0.N) : Vec F S10000x256 .bf16 := fun y =>
  if h : (y 0).val < 5000 then hid m c (prev t) (ix2 (⟨(y 0).val, h⟩ : Fin 5000) (y 1))
  else hid m c t (ix2 (⟨(y 0).val - 5000, by have h2 : (y 0).val < 10000 := (y 0).isLt; omega⟩ : Fin 5000) (y 1))

/-- What an odd point stores into the output block: the scores of the batch's 10000 nodes, transposed. -/
def outBlk (c : Dev nD) (t : Fin cfg0.N) : Vec F S1x64x10000 .f32 :=
  k0_pay2 (blk5 m c t) (hidBoth m c t) (blk6 m c t)

/-- The lower rows of the carried buffer hold the hidden state of point `t`: what an even point leaves for the next. -/
def LowerIs (c : Dev nD) (t : Fin cfg0.N) (s : Vec F S10000x256 .bf16) : Prop :=
  ∀ y : S10000x256.Idx, ∀ h : (y 0).val < 5000, s y = hid m c t (ix2 (⟨(y 0).val, h⟩ : Fin 5000) (y 1))

end Cert.Kernel.Carried

end
-- ==== Proof.BodyRunB.lean ====
import proofs.«176054_g49924699848964_cont_8to1_c_527_19_alg».proof.Proof.CarriedB

/-!
  The kernel body, run once on arbitrary whole buffers.

  Whatever the point, the body reads its seven input blocks and the carried buffer of hidden states, computes the
  hidden state of the point's 5000 nodes and stores it into the point's rows of the carried buffer. At an even
  point that is all: the output block is not touched. At an odd point it then reads the carried buffer whole —
  the rows just stored and the rows the point before left — and stores the scores computed from it into the
  output block. The inputs are handed back as found.
-/

set_option maxRecDepth 16384

noncomputable section

namespace Cert.Kernel.BodyRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried

variable {F : FTy → Type} [FloatOps F]

local notation "𝕄" => MT nD τ sig Unit (Elt F) ℕ (UR sig nD τ) ℕ

set_option maxHeartbeats 1000000 in
/-- The body where the scores are NOT computed (an even point): the point's hidden state goes into its rows of the
    carried buffer; everything else, the output block included, is handed back as found. -/
theorem run_even (c : Dev nD) (i : grid0.Coords) (arg2 : Memref sig .tc .vmem S1x5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S1x64x10000 .f32) (harg9 : arg9.IsWhole) (arg10 : Memref sig .tc .vmem S10000x256 .bf16) (harg10 : arg10.IsWhole) (hc0 : ¬ k0_cond1 i = 1#1)
    (x0 : Vec F S1x5000x256 .f32) (x1 : Vec F S256x256 .f32) (x2 : Vec F S256x256 .f32) (x3 : Vec F S256x256 .f32) (x4 : Vec F S256x256 .f32) (x5 : Vec F S64x256 .f32) (x6 : Vec F S1x64 .f32) (x7 : Vec F S1x64x10000 .f32) (xs : Vec F S10000x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare (scAfter i arg10 harg10 xs (k0_pay1 x0 x1 x2 x3 x4))) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    iexists _; isplitr; swap; · iexact HS
    ipureintro
    unfold scAfter
    rw [load_whole arg2 harg2 x0 zero3, load_whole arg3 harg3 x1 zero2, load_whole arg4 harg4 x2 zero2,
      load_whole arg5 harg5 x3 zero2, load_whole arg6 harg6 x4 zero2]
    rfl

set_option maxHeartbeats 1000000 in
/-- The body where the scores ARE computed (an odd point): after the point's hidden state has gone into its rows,
    the carried buffer is read whole and the scores computed from it are stored into the output block, whatever
    that held. -/
theorem run_odd (c : Dev nD) (i : grid0.Coords) (arg2 : Memref sig .tc .vmem S1x5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S1x64x10000 .f32) (harg9 : arg9.IsWhole) (arg10 : Memref sig .tc .vmem S10000x256 .bf16) (harg10 : arg10.IsWhole) (hc0 : k0_cond1 i = 1#1)
    (x0 : Vec F S1x5000x256 .f32) (x1 : Vec F S256x256 .f32) (x2 : Vec F S256x256 .f32) (x3 : Vec F S256x256 .f32) (x4 : Vec F S256x256 .f32) (x5 : Vec F S64x256 .f32) (x6 : Vec F S1x64 .f32) (xs : Vec F S10000x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare (k0_pay2 x5 (scAfter i arg10 harg10 xs (k0_pay1 x0 x1 x2 x3 x4)) x6)
                ∗ owns (c : Thread nD τ) arg10 fullShare (scAfter i arg10 harg10 xs (k0_pay1 x0 x1 x2 x3 x4))) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [View.read_writes_eq_canon _ _ _ (fun y => ⟨_, List.mem_singleton_self _, View.mem_set_unit_zero zero3 inb_S1x64x10000_S1x64x10000_0_0_0 y⟩),
        View.canon_unit_zero zero3]
      unfold scAfter
      rw [load_whole arg2 harg2 x0 zero3, load_whole arg3 harg3 x1 zero2, load_whole arg4 harg4 x2 zero2,
        load_whole arg5 harg5 x3 zero2, load_whole arg6 harg6 x4 zero2, load_whole arg7 harg7 x5 zero2,
        load_whole arg8 harg8 x6 zero2, View.readAt_eq_ld, View.ld_unit_zero (S := S10000x256) zero2]
      rfl
    iexists _; isplitr; swap; · iexact HS
    ipureintro
    unfold scAfter
    rw [load_whole arg2 harg2 x0 zero3, load_whole arg3 harg3 x1 zero2, load_whole arg4 harg4 x2 zero2,
      load_whole arg5 harg5 x3 zero2, load_whole arg6 harg6 x4 zero2]
    rfl

end Cert.Kernel.BodyRun

end
-- ==== Proof.FrameRunB.lean ====
import proofs.«176054_g49924699848964_cont_8to1_c_527_19_alg».proof.Proof.BodyRunB

/-!
  The kernel's run on the pipeline.

  The proof data name what every staging buffer holds after the body at each point: an input's buffer its block,
  the output's buffer — at the odd points, the only ones that store into it and the only ones written back — the
  scores of the batch. What is carried between points is stated by the invariant: after an even point the lower
  5000 rows of the carried buffer hold that point's hidden state, which is all the next (odd) point needs beside
  its own rows; after an odd point nothing is remembered.
-/

set_option maxRecDepth 16384

noncomputable section

namespace Cert.Kernel.FrameRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried Cert.Kernel.BodyRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Before position `n`: the carried buffer at some contents whose lower rows, if the point before was an even
    one, are that point's hidden state; and the generator register. -/
def PhiS (c : Dev nD) (n : ℕ) : sProp 𝕄 :=
  iprop(iprop(∃ s, ⌜∀ t : Fin cfg0.N, t.val + 1 = n → ¬ t.val % 2 = 1 → LowerIs m c t s⌝
      ∗ owns (c : Thread nD τ) scM fullShare s) ∗ (∃ r, prngReg c r))

/-- After an even point's store the lower rows are that point's hidden state. -/
theorem lower_after_even (c : Dev nD) (t : Fin cfg0.N) (h0 : ¬ t.val % 2 = 1) (s : Vec F S10000x256 .bf16) :
    LowerIs m c t (scAfter (grid0.coords t) scM hscM s (hid m c t)) := by
  intro y h
  refine scAfter_hit (grid0.coords t) scM hscM s (hid m c t) 0 ?_ y (ix2 (⟨(y 0).val, h⟩ : Fin 5000) (y 1)) ?_ rfl
  · rw [off_eq t]; have : t.val % 2 = 0 := by omega
    rw [this]
  · exact (Nat.zero_add _).symm

/-- After an odd point's store the buffer is the whole batch's hidden state, if the lower rows were the point
    before's. -/
theorem both_after_odd (c : Dev nD) (t : Fin cfg0.N) (h0 : t.val % 2 = 1) (s : Vec F S10000x256 .bf16)
    (hs : LowerIs m c (prev t) s) :
    scAfter (grid0.coords t) scM hscM s (hid m c t) = hidBoth m c t := by
  have ho : k0_off1 (grid0.coords t) = ![5000, 0] := by rw [off_eq t, h0]
  funext y
  unfold hidBoth
  by_cases h : (y 0).val < 5000
  · rw [dif_pos h, scAfter_miss (grid0.coords t) scM hscM s (hid m c t) 5000 ho y (Or.inl h)]
    exact hs y h
  · rw [dif_neg h]
    have h2 : (y 0).val < 10000 := (y 0).isLt
    exact scAfter_hit (grid0.coords t) scM hscM s (hid m c t) 5000 ho y _ (by show (y 0).val = 5000 + ((y 0).val - 5000); omega) rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlk m c t := by dsimp only [dats]

/-- Every input's current staging buffer holds its block, fetched at this point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  unfold PhiS
  by_cases h0 : t.val % 2 = 1
  · rw [show (dats m 0 c).leavesExact 7 t = owns (c : Thread nD τ) (ms7 t) fullShare ((dats m 0 c).after 7 t) from by
      unfold Dat.leavesExact; rw [live7_odd t h0], after7]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hlow : LowerIs m c (prev t) s := hs (prev t) (by show t.val - 1 + 1 = t.val; omega) (by show ¬ (t.val - 1) % 2 = 1; omega)
    have hboth := both_after_odd m c t h0 s hlow
    iapply ((run_odd c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM ((cond_iff t).mpr h0) (blk0 m c t) (blk1 m c t) (blk2 m c t) (blk3 m c t) (blk4 m c t) (blk5 m c t) (blk6 m c t) s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexists _; isplitr; swap; · iexact HS
        ipureintro
        intro t' ht' hodd
        exfalso
        have : t'.val = t.val := by omega
        omega
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have e7 : k0_pay2 (blk5 m c t) (scAfter (grid0.coords t) scM hscM s (k0_pay1 (blk0 m c t) (blk1 m c t) (blk2 m c t) (blk3 m c t) (blk4 m c t))) (blk6 m c t) = outBlk m c t := by
      unfold outBlk; exact congrArg (fun z => k0_pay2 (blk5 m c t) z (blk6 m c t)) hboth
    rw [e7]
    iexact H7
  · rw [Dat.leavesExact_idle (dats m 0 c) 7 t (idle7_even t h0) (noFlush7_even t h0)]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_even c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (fun h => h0 ((cond_iff t).mp h)) (blk0 m c t) (blk1 m c t) (blk2 m c t) (blk3 m c t) (blk4 m c t) (blk5 m c t) (blk6 m c t) _ s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _; isplitr; swap; · iexact HS
        ipureintro
        intro t' ht' hodd
        have : t' = t := Fin.ext (by omega)
        subst this
        exact lower_after_even m c t' h0 s
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

theorem body_obligation (c : Dev nD) : BodyObligation (dats (F := F) m 0 c) (defs₀ (F := F)) Variants.none () Set.univ := fun t => by
  rw [bigSep_W0, bigSep_W0]
  exact sound_body m c t

/-- What the launch hands the region is the invariant before the first point: no point came before it. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr; swap; · iexact HS
    ipureintro
    intro t ht
    exact absurd ht (Nat.succ_ne_zero _)
  iexact Hg

/-- After the last point the invariant gives the buffer back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%s, %hs, HS⟩, Hg⟩
  isplitl [HS]
  · iexists _; iexact HS
  iexact Hg

/-! ## The run and the frame -/

set_option backward.isDefEq.respectTransparency.types false in
/-- Every weakly fair execution of the program terminates, every array of the pipeline ending at what the
    write-backs of the proof data leave in it and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.FrameRun

end
-- ==== Proof.CarriedI.lean ====
import proofs.«176054_g49924699848964_cont_8to1_c_527_19_alg».proof.Proof.Gen.KernelIdeal.Frame
import proofs.«176054_g49924699848964_cont_8to1_c_527_19_alg».proof.Proof.Gen.KernelIdeal.Skeleton
import Idealize.ShloMosaic.Lib.WritesUnit
import Idealize.ShloMosaic.Lib.Pipeline.Value
import Idealize.ShloMosaic.Lib.ValueIdx

/-!
  What the kernel carries from one grid point to the next.

  The grid is 4 × 2: point `t` is batch `t / 2`, half `t % 2`. Every point computes the hidden state of its 5000
  nodes and stores it into rows `[5000·(t % 2), 5000·(t % 2) + 5000)` of a 10000-row buffer that lives across
  points. At the second half of a batch the buffer therefore holds the batch's whole hidden state — its lower rows
  from the point before, its upper rows from the point itself — and only there the scores are computed from it and
  stored into the output block, which the pipeline writes back after exactly those points.
-/

set_option maxRecDepth 16384

noncomputable section

namespace Cert.KernelIdeal.Carried

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The schedule in closed form -/

/-- The branch that computes the scores is taken exactly at the odd points (the second half of a batch). -/
theorem cond_iff : ∀ t : Fin cfg0.N, k0_cond1 (grid0.coords t) = 1#1 ↔ t.val % 2 = 1 :=
  (by decide +kernel : ∀ t : Fin grid0.N, k0_cond1 (grid0.coords t) = 1#1 ↔ t.val % 2 = 1)

/-- The rows a point stores its hidden state into start at `5000 · (t % 2)`. -/
theorem off_eq : ∀ t : Fin cfg0.N, k0_off1 (grid0.coords t) = ![5000 * (t.val % 2), 0] :=
  (by decide +kernel : ∀ t : Fin grid0.N, k0_off1 (grid0.coords t) = ![5000 * (t.val % 2), 0])

/-- The inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output block is stored into at the odd points only; at the even ones it is idle and not written back. -/
theorem live7_odd : ∀ t : Fin cfg0.N, t.val % 2 = 1 → cfg0.idle 7 (grid0.coords t) = false := by decide +kernel
theorem idle7_even : ∀ t : Fin cfg0.N, ¬ t.val % 2 = 1 → cfg0.idle 7 (grid0.coords t) = true := by decide +kernel
theorem noFlush7_even : ∀ t : Fin cfg0.N, ¬ t.val % 2 = 1 → (cfg0.win 7).flush t = false := by decide +kernel

/-! ## The staging buffers at a point, and the carried buffer -/

abbrev ms0 (t : Fin cfg0.N) : Memref sig .tc .vmem S1x5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64x10000 .f32 := win0_7.stage (cfg0.slots t 7)
abbrev hs7 (t : Fin cfg0.N) : (ms7 t).IsWhole := hstage0_7 ((cfg0.slots t 7).cast nbuf0_7)
/-- The buffer of hidden states, which lives across the points. -/
abbrev scM : Memref sig .tc .vmem S10000x256 .bf16 := Memref.whole cc0_scratch0
abbrev hscM : (scM).IsWhole := Memref.isWhole_whole _

/-- What the pipeline hands the body beside the windows: the carried buffer at some contents, and the generator
    register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The zero offsets, however many axes. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A whole-block load of a whole buffer returns the buffer's contents. -/
theorem load_whole {S : Shape} {e : EltTy} (a : Memref sig .tc .vmem S e) (ha : a.IsWhole) (x : Vec F S e)
    {off : Fin S.rank → Nat} (hz : off = fun _ => 0) (inb : ∀ a, off a + S.size a ≤ S.size a) :
    View.readAt (Elt F) a.view (Rect.unit (s := S) off S.size inb).toLoadRect (ha.unread x) = x := by
  rw [View.readAt_eq_ld, ha.read_unread, View.ld_unit_zero (S := S) hz]

/-! ## The carried buffer after a point's store -/

/-- The carried buffer, found at `xs`, after hidden state `p` is stored into the point's rows: read through the
    buffer's own view. -/
def scAfter (i : grid0.Coords) (arg10 : Memref sig .tc .vmem S10000x256 .bf16) (harg10 : arg10.IsWhole)
    (xs : Vec F S10000x256 .bf16) (p : Vec F S5000x256 .bf16) : Vec F S10000x256 .bf16 :=
  arg10.view.read (Elt F) (arg10.view.writes (Elt F) (harg10.unread xs)
    [⟨Rect.unit (s := S10000x256) (k0_off1 i) S5000x256.size (k0_off1_inb i), p⟩])

/-- In the stored rows it holds the hidden state just stored, -/
theorem scAfter_hit (i : grid0.Coords) (arg10 : Memref sig .tc .vmem S10000x256 .bf16) (harg10 : arg10.IsWhole)
    (xs : Vec F S10000x256 .bf16) (p : Vec F S5000x256 .bf16) (o : ℕ) (ho : k0_off1 i = ![o, 0])
    (y : S10000x256.Idx) (x : S5000x256.Idx) (h0 : (y 0).val = o + (x 0).val) (h1 : (y 1).val = (x 1).val) :
    scAfter i arg10 harg10 xs p y = p x :=
  View.read_writes_cons_rows_of_mem arg10.view (harg10.unread xs) (k0_off1_inb i) p [] y x ho h0 h1

/-- and in every other row what it held before. -/
theorem scAfter_miss (i : grid0.Coords) (arg10 : Memref sig .tc .vmem S10000x256 .bf16) (harg10 : arg10.IsWhole)
    (xs : Vec F S10000x256 .bf16) (p : Vec F S5000x256 .bf16) (o : ℕ) (ho : k0_off1 i = ![o, 0])
    (y : S10000x256.Idx) (h : (y 0).val < o ∨ o + 5000 ≤ (y 0).val) :
    scAfter i arg10 harg10 xs p y = xs y := by
  unfold scAfter
  rw [View.read_writes_cons_rows_of_not_mem arg10.view (harg10.unread xs) (k0_off1_inb i) p [] y ho rfl h,
    View.writes_nil, harg10.read_unread]

/-! ## What each point computes, as functions of the input blocks -/

variable (m : (ℓ : Loc nD τ sig) → Buf (Elt F) ℓ)

/-- The input windows' blocks at a point, at their literal types. -/
abbrev blk0 (c : Dev nD) (t : Fin cfg0.N) : Vec F S1x5000x256 .f32 := iblk m c 0 t
abbrev blk1 (c : Dev nD) (t : Fin cfg0.N) : Vec F S256x256 .f32 := iblk m c 1 t
abbrev blk2 (c : Dev nD) (t : Fin cfg0.N) : Vec F S256x256 .f32 := iblk m c 2 t
abbrev blk3 (c : Dev nD) (t : Fin cfg0.N) : Vec F S256x256 .f32 := iblk m c 3 t
abbrev blk4 (c : Dev nD) (t : Fin cfg0.N) : Vec F S256x256 .f32 := iblk m c 4 t
abbrev blk5 (c : Dev nD) (t : Fin cfg0.N) : Vec F S64x256 .f32 := iblk m c 5 t
abbrev blk6 (c : Dev nD) (t : Fin cfg0.N) : Vec F S1x64 .f32 := iblk m c 6 t

/-- The hidden state of the 5000 nodes of point `t`. -/
def hid (c : Dev nD) (t : Fin cfg0.N) : Vec F S5000x256 .bf16 :=
  k0_pay1 (blk0 m c t) (blk1 m c t) (blk2 m c t) (blk3 m c t) (blk4 m c t)

/-- The point before `t` (itself at the first point, where nothing reads it). -/
abbrev prev (t : Fin cfg0.N) : Fin cfg0.N := ⟨t.val - 1, Nat.lt_of_le_of_lt (Nat.sub_le _ _) t.isLt⟩

/-- The whole batch's hidden state as an odd point finds it after its own store: the lower 5000 rows are the point
    before's, the upper 5000 its own. -/
def hidBoth (c : Dev nD) (t : Fin cfg0.N) : Vec F S10000x256 .bf16 := fun y =>
  if h : (y 0).val < 5000 then hid m c (prev t) (ix2 (⟨(y 0).val, h⟩ : Fin 5000) (y 1))
  else hid m c t (ix2 (⟨(y 0).val - 5000, by have h2 : (y 0).val < 10000 := (y 0).isLt; omega⟩ : Fin 5000) (y 1))

/-- What an odd point stores into the output block: the scores of the batch's 10000 nodes, transposed. -/
def outBlk (c : Dev nD) (t : Fin cfg0.N) : Vec F S1x64x10000 .f32 :=
  k0_pay2 (blk5 m c t) (hidBoth m c t) (blk6 m c t)

/-- The lower rows of the carried buffer hold the hidden state of point `t`: what an even point leaves for the next. -/
def LowerIs (c : Dev nD) (t : Fin cfg0.N) (s : Vec F S10000x256 .bf16) : Prop :=
  ∀ y : S10000x256.Idx, ∀ h : (y 0).val < 5000, s y = hid m c t (ix2 (⟨(y 0).val, h⟩ : Fin 5000) (y 1))

end Cert.KernelIdeal.Carried

end
-- ==== Proof.BodyRunI.lean ====
import proofs.«176054_g49924699848964_cont_8to1_c_527_19_alg».proof.Proof.CarriedI

/-!
  The kernel body, run once on arbitrary whole buffers.

  Whatever the point, the body reads its seven input blocks and the carried buffer of hidden states, computes the
  hidden state of the point's 5000 nodes and stores it into the point's rows of the carried buffer. At an even
  point that is all: the output block is not touched. At an odd point it then reads the carried buffer whole —
  the rows just stored and the rows the point before left — and stores the scores computed from it into the
  output block. The inputs are handed back as found.
-/

set_option maxRecDepth 16384

noncomputable section

namespace Cert.KernelIdeal.BodyRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried

variable {F : FTy → Type} [FloatOps F]

local notation "𝕄" => MT nD τ sig Unit (Elt F) ℕ (UR sig nD τ) ℕ

set_option maxHeartbeats 1000000 in
/-- The body where the scores are NOT computed (an even point): the point's hidden state goes into its rows of the
    carried buffer; everything else, the output block included, is handed back as found. -/
theorem run_even (c : Dev nD) (i : grid0.Coords) (arg2 : Memref sig .tc .vmem S1x5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S1x64x10000 .f32) (harg9 : arg9.IsWhole) (arg10 : Memref sig .tc .vmem S10000x256 .bf16) (harg10 : arg10.IsWhole) (hc0 : ¬ k0_cond1 i = 1#1)
    (x0 : Vec F S1x5000x256 .f32) (x1 : Vec F S256x256 .f32) (x2 : Vec F S256x256 .f32) (x3 : Vec F S256x256 .f32) (x4 : Vec F S256x256 .f32) (x5 : Vec F S64x256 .f32) (x6 : Vec F S1x64 .f32) (x7 : Vec F S1x64x10000 .f32) (xs : Vec F S10000x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare (scAfter i arg10 harg10 xs (k0_pay1 x0 x1 x2 x3 x4))) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact hf7
      iexact H7
    iexists _; isplitr; swap; · iexact HS
    ipureintro
    unfold scAfter
    rw [load_whole arg2 harg2 x0 zero3, load_whole arg3 harg3 x1 zero2, load_whole arg4 harg4 x2 zero2,
      load_whole arg5 harg5 x3 zero2, load_whole arg6 harg6 x4 zero2]
    rfl

set_option maxHeartbeats 1000000 in
/-- The body where the scores ARE computed (an odd point): after the point's hidden state has gone into its rows,
    the carried buffer is read whole and the scores computed from it are stored into the output block, whatever
    that held. -/
theorem run_odd (c : Dev nD) (i : grid0.Coords) (arg2 : Memref sig .tc .vmem S1x5000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S64x256 .f32) (harg7 : arg7.IsWhole) (arg8 : Memref sig .tc .vmem S1x64 .f32) (harg8 : arg8.IsWhole) (arg9 : Memref sig .tc .vmem S1x64x10000 .f32) (harg9 : arg9.IsWhole) (arg10 : Memref sig .tc .vmem S10000x256 .bf16) (harg10 : arg10.IsWhole) (hc0 : k0_cond1 i = 1#1)
    (x0 : Vec F S1x5000x256 .f32) (x1 : Vec F S256x256 .f32) (x2 : Vec F S256x256 .f32) (x3 : Vec F S256x256 .f32) (x4 : Vec F S256x256 .f32) (x5 : Vec F S64x256 .f32) (x6 : Vec F S1x64 .f32) (xs : Vec F S10000x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare (k0_pay2 x5 (scAfter i arg10 harg10 xs (k0_pay1 x0 x1 x2 x3 x4)) x6)
                ∗ owns (c : Thread nD τ) arg10 fullShare (scAfter i arg10 harg10 xs (k0_pay1 x0 x1 x2 x3 x4))) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [View.read_writes_eq_canon _ _ _ (fun y => ⟨_, List.mem_singleton_self _, View.mem_set_unit_zero zero3 inb_S1x64x10000_S1x64x10000_0_0_0 y⟩),
        View.canon_unit_zero zero3]
      unfold scAfter
      rw [load_whole arg2 harg2 x0 zero3, load_whole arg3 harg3 x1 zero2, load_whole arg4 harg4 x2 zero2,
        load_whole arg5 harg5 x3 zero2, load_whole arg6 harg6 x4 zero2, load_whole arg7 harg7 x5 zero2,
        load_whole arg8 harg8 x6 zero2, View.readAt_eq_ld, View.ld_unit_zero (S := S10000x256) zero2]
      rfl
    iexists _; isplitr; swap; · iexact HS
    ipureintro
    unfold scAfter
    rw [load_whole arg2 harg2 x0 zero3, load_whole arg3 harg3 x1 zero2, load_whole arg4 harg4 x2 zero2,
      load_whole arg5 harg5 x3 zero2, load_whole arg6 harg6 x4 zero2]
    rfl

end Cert.KernelIdeal.BodyRun

end
-- ==== Proof.FrameRunI.lean ====
import proofs.«176054_g49924699848964_cont_8to1_c_527_19_alg».proof.Proof.BodyRunI

/-!
  The kernel's run on the pipeline.

  The proof data name what every staging buffer holds after the body at each point: an input's buffer its block,
  the output's buffer — at the odd points, the only ones that store into it and the only ones written back — the
  scores of the batch. What is carried between points is stated by the invariant: after an even point the lower
  5000 rows of the carried buffer hold that point's hidden state, which is all the next (odd) point needs beside
  its own rows; after an odd point nothing is remembered.
-/

set_option maxRecDepth 16384

noncomputable section

namespace Cert.KernelIdeal.FrameRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried Cert.KernelIdeal.BodyRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Before position `n`: the carried buffer at some contents whose lower rows, if the point before was an even
    one, are that point's hidden state; and the generator register. -/
def PhiS (c : Dev nD) (n : ℕ) : sProp 𝕄 :=
  iprop(iprop(∃ s, ⌜∀ t : Fin cfg0.N, t.val + 1 = n → ¬ t.val % 2 = 1 → LowerIs m c t s⌝
      ∗ owns (c : Thread nD τ) scM fullShare s) ∗ (∃ r, prngReg c r))

/-- After an even point's store the lower rows are that point's hidden state. -/
theorem lower_after_even (c : Dev nD) (t : Fin cfg0.N) (h0 : ¬ t.val % 2 = 1) (s : Vec F S10000x256 .bf16) :
    LowerIs m c t (scAfter (grid0.coords t) scM hscM s (hid m c t)) := by
  intro y h
  refine scAfter_hit (grid0.coords t) scM hscM s (hid m c t) 0 ?_ y (ix2 (⟨(y 0).val, h⟩ : Fin 5000) (y 1)) ?_ rfl
  · rw [off_eq t]; have : t.val % 2 = 0 := by omega
    rw [this]
  · exact (Nat.zero_add _).symm

/-- After an odd point's store the buffer is the whole batch's hidden state, if the lower rows were the point
    before's. -/
theorem both_after_odd (c : Dev nD) (t : Fin cfg0.N) (h0 : t.val % 2 = 1) (s : Vec F S10000x256 .bf16)
    (hs : LowerIs m c (prev t) s) :
    scAfter (grid0.coords t) scM hscM s (hid m c t) = hidBoth m c t := by
  have ho : k0_off1 (grid0.coords t) = ![5000, 0] := by rw [off_eq t, h0]
  funext y
  unfold hidBoth
  by_cases h : (y 0).val < 5000
  · rw [dif_pos h, scAfter_miss (grid0.coords t) scM hscM s (hid m c t) 5000 ho y (Or.inl h)]
    exact hs y h
  · rw [dif_neg h]
    have h2 : (y 0).val < 10000 := (y 0).isLt
    exact scAfter_hit (grid0.coords t) scM hscM s (hid m c t) 5000 ho y _ (by show (y 0).val = 5000 + ((y 0).val - 5000); omega) rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlk m c t := by dsimp only [dats]

/-- Every input's current staging buffer holds its block, fetched at this point or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  unfold PhiS
  by_cases h0 : t.val % 2 = 1
  · rw [show (dats m 0 c).leavesExact 7 t = owns (c : Thread nD τ) (ms7 t) fullShare ((dats m 0 c).after 7 t) from by
      unfold Dat.leavesExact; rw [live7_odd t h0], after7]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hlow : LowerIs m c (prev t) s := hs (prev t) (by show t.val - 1 + 1 = t.val; omega) (by show ¬ (t.val - 1) % 2 = 1; omega)
    have hboth := both_after_odd m c t h0 s hlow
    iapply ((run_odd c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM ((cond_iff t).mpr h0) (blk0 m c t) (blk1 m c t) (blk2 m c t) (blk3 m c t) (blk4 m c t) (blk5 m c t) (blk6 m c t) s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexists _; isplitr; swap; · iexact HS
        ipureintro
        intro t' ht' hodd
        exfalso
        have : t'.val = t.val := by omega
        omega
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have e7 : k0_pay2 (blk5 m c t) (scAfter (grid0.coords t) scM hscM s (k0_pay1 (blk0 m c t) (blk1 m c t) (blk2 m c t) (blk3 m c t) (blk4 m c t))) (blk6 m c t) = outBlk m c t := by
      unfold outBlk; exact congrArg (fun z => k0_pay2 (blk5 m c t) z (blk6 m c t)) hboth
    rw [e7]
    iexact H7
  · rw [Dat.leavesExact_idle (dats m 0 c) 7 t (idle7_even t h0) (noFlush7_even t h0)]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_even c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (fun h => h0 ((cond_iff t).mp h)) (blk0 m c t) (blk1 m c t) (blk2 m c t) (blk3 m c t) (blk4 m c t) (blk5 m c t) (blk6 m c t) _ s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _; isplitr; swap; · iexact HS
        ipureintro
        intro t' ht' hodd
        have : t' = t := Fin.ext (by omega)
        subst this
        exact lower_after_even m c t' h0 s
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

theorem body_obligation (c : Dev nD) : BodyObligation (dats (F := F) m 0 c) (defs₀ (F := F)) Variants.none () Set.univ := fun t => by
  rw [bigSep_W0, bigSep_W0]
  exact sound_body m c t

/-- What the launch hands the region is the invariant before the first point: no point came before it. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr; swap; · iexact HS
    ipureintro
    intro t ht
    exact absurd ht (Nat.succ_ne_zero _)
  iexact Hg

/-- After the last point the invariant gives the buffer back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%s, %hs, HS⟩, Hg⟩
  isplitl [HS]
  · iexists _; iexact HS
  iexact Hg

/-! ## The run and the frame -/

set_option backward.isDefEq.respectTransparency.types false in
/-- Every weakly fair execution of the program terminates, every array of the pipeline ending at what the
    write-backs of the proof data leave in it and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.FrameRun

end
-- ==== Proof.RowMap.lean ====
import Idealize.ShloMosaic.PureOps.Ideal
import Idealize.ShloMosaic.Lib.ValueIdx

/-!
  The network as a function of one node's feature row, over the extended reals.

  A dense layer sends a row `x` to `c ↦ Σ_k x_k · W_{k c}`; the ramp is `max · 0` entry by entry. The hidden state
  of a node is four dense layers with a ramp after each of the first three; its scores are one more dense layer plus
  a bias. Every node is treated alike and independently of the others, so the whole result is this row map applied
  to each (batch, node) row of the input.
-/

noncomputable section

namespace Cert.Net

open Idealize.ShloMosaic Idealize.ShloMosaic.ValueIdx

/-- One dense layer on a row: `(x W)_c = Σ_k x_k · W_{k c}`. -/
def dense {n p : ℕ} (W : Fin n → Fin p → EReal) (x : Fin n → EReal) : Fin p → EReal :=
  fun c => ∑ k : Fin n, x k * W k c

/-- The ramp, entry by entry. -/
def ramp {n : ℕ} (x : Fin n → EReal) : Fin n → EReal := fun c => max (x c) 0

/-- A node's hidden state: four dense layers, a ramp after each of the first three. -/
def hidden (W1 W2 W3 W4 : Fin 256 → Fin 256 → EReal) (x : Fin 256 → EReal) : Fin 256 → EReal :=
  dense W4 (ramp (dense W3 (ramp (dense W2 (ramp (dense W1 x))))))

/-- A node's scores from its hidden state: a dense layer and a bias. -/
def scores (Wc : Fin 256 → Fin 64 → EReal) (b : Fin 64 → EReal) (h : Fin 256 → EReal) : Fin 64 → EReal :=
  fun k => (∑ d : Fin 256, h d * Wc d k) + b k

/-- A square weight array as a matrix. -/
abbrev mat {n p : ℕ} (W : (⟨2, ![n, p]⟩ : Shape).Idx → EReal) : Fin n → Fin p → EReal := fun k c => W (ix2 k c)

/-- The whole result: entry `(b, n, k)` is score `k` of node `n` of batch `b`. -/
def result (x : (⟨3, ![4, 10000, 256]⟩ : Shape).Idx → EReal) (W1 W2 W3 W4 : (⟨2, ![256, 256]⟩ : Shape).Idx → EReal)
    (Wc : (⟨2, ![256, 64]⟩ : Shape).Idx → EReal) (bc : (⟨1, ![64]⟩ : Shape).Idx → EReal) :
    (⟨3, ![4, 10000, 64]⟩ : Shape).Idx → EReal :=
  fun i => scores (mat Wc) (fun k => bc (ix1 k))
    (hidden (mat W1) (mat W2) (mat W3) (mat W4) (fun d => x (ix3 (i 0) (i 1) d))) (i 2)

end Cert.Net

end
-- ==== Proof.PayloadRows.lean ====
import proofs.«176054_g49924699848964_cont_8to1_c_527_19_alg».proof.Proof.Gen.KernelIdeal.Skeleton
import proofs.«176054_g49924699848964_cont_8to1_c_527_19_alg».proof.Proof.RowMap
import Idealize.ShloMosaic.Lib.ValueIdx
import Idealize.ShloMosaic.Lib.ValueLayout
import Idealize.ShloMosaic.Lib.Pipeline.Value
import Idealize.ShloMosaic.PureOps.Ideal.Laws

/-!
  The kernel body's two stored values, read at an index, over the extended reals.

  The first is a block of 5000 node rows pushed through four dense layers with a ramp after each of the first three:
  entry (r, q) is the hidden state of the row r of the block, at q. The second is the score block: entry (0, k, n) is
  the product of the row k of the output weights with the hidden row n, plus the bias of k.
-/

noncomputable section

namespace Cert.KernelIdeal.PayloadRows

open Cert.KernelIdeal Cert.KernelIdeal.Gen Idealize.ShloMosaic Idealize.ShloMosaic.ValueIdx

/-! ## The square product: contraction of the left operand's columns with the right operand's rows -/

theorem lhs_sq_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_sq_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_sq_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_sq_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A product into the zero accumulator, at (r, q): the sum over k of left (r, k) times right (k, q). -/
theorem mm_apply (a : FVec Ideal S5000x256 .bf16) (w : FVec Ideal S256x256 .bf16) (r : Fin 5000) (q : Fin 256) :
    matmul (F := Ideal) dot_S5000x256_S256x256_S5000x256_1_0_0_1_n_n none a w (constant (F := Ideal) S5000x256 .f32 0x00000000#32) (ix2 r q)
      = ∑ k : Fin 256, a (ix2 r k) * w (ix2 k q) := by
  refine (Ideal.matmul_constant_zero_apply dot_S5000x256_S256x256_S5000x256_1_0_0_1_n_n none a w (ix2 r q)).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r q) ((ValueIdx.contrEquiv1 dot_S5000x256_S256x256_S5000x256_1_0_0_1_n_n 256 rfl rfl).symm k) = ix2 r k := funext fun a => Fin.ext (by
    match a with
    | ⟨0, _⟩ => exact lhs_sq_0 _ _
    | ⟨1, _⟩ => exact (lhs_sq_1 _ _).trans hk)
  have er : dot_S5000x256_S256x256_S5000x256_1_0_0_1_n_n.rhsIdx (ix2 r q) ((ValueIdx.contrEquiv1 dot_S5000x256_S256x256_S5000x256_1_0_0_1_n_n 256 rfl rfl).symm k) = ix2 k q := funext fun a => Fin.ext (by
    match a with
    | ⟨0, _⟩ => exact (rhs_sq_0 _ _).trans hk
    | ⟨1, _⟩ => exact rhs_sq_1 _ _)
  rw [el, er]

/-! ## The score product: contraction of the columns of both operands -/

theorem lhs_sc_0 (i : S64x10000.Idx) (q : dot_S64x256_S10000x256_S64x10000_1_1_0_0_n_n.contr.Idx) :
    (dot_S64x256_S10000x256_S64x10000_1_1_0_0_n_n.lhsIdx i q 0).val = (i 0).val := by
  unfold DotDims.lhsIdx
  rw [dif_neg (show ¬(0 : Fin S64x256.rank) ∈ dot_S64x256_S10000x256_S64x10000_1_1_0_0_n_n.lhsBatch by decide), dif_pos (show (0 : Fin S64x256.rank) ∈ dot_S64x256_S10000x256_S64x10000_1_1_0_0_n_n.lhsNonContracting by decide)]
  rfl
theorem lhs_sc_1 (i : S64x10000.Idx) (q : dot_S64x256_S10000x256_S64x10000_1_1_0_0_n_n.contr.Idx) :
    (dot_S64x256_S10000x256_S64x10000_1_1_0_0_n_n.lhsIdx i q 1).val = (q ⟨0, by decide⟩).val :=
  dot_S64x256_S10000x256_S64x10000_1_1_0_0_n_n.lhsIdx_val_of_single rfl i q
theorem rhs_sc_0 (i : S64x10000.Idx) (q : dot_S64x256_S10000x256_S64x10000_1_1_0_0_n_n.contr.Idx) :
    (dot_S64x256_S10000x256_S64x10000_1_1_0_0_n_n.rhsIdx i q 0).val = (i 1).val := by
  unfold DotDims.rhsIdx
  rw [dif_neg (show ¬(0 : Fin S10000x256.rank) ∈ dot_S64x256_S10000x256_S64x10000_1_1_0_0_n_n.rhsBatch by decide), dif_pos (show (0 : Fin S10000x256.rank) ∈ dot_S64x256_S10000x256_S64x10000_1_1_0_0_n_n.rhsNonContracting by decide)]
  rfl
theorem rhs_sc_1 (i : S64x10000.Idx) (q : dot_S64x256_S10000x256_S64x10000_1_1_0_0_n_n.contr.Idx) :
    (dot_S64x256_S10000x256_S64x10000_1_1_0_0_n_n.rhsIdx i q 1).val = (q ⟨0, by decide⟩).val :=
  dot_S64x256_S10000x256_S64x10000_1_1_0_0_n_n.rhsIdx_val_of_single rfl i q

/-- The score product into the zero accumulator, at (k, n): the sum over d of left (k, d) times right (n, d). -/
theorem mmT_apply (a : FVec Ideal S64x256 .bf16) (w : FVec Ideal S10000x256 .bf16) (k : Fin 64) (n : Fin 10000) :
    matmul (F := Ideal) dot_S64x256_S10000x256_S64x10000_1_1_0_0_n_n none a w (constant (F := Ideal) S64x10000 .f32 0x00000000#32) (ix2 k n)
      = ∑ d : Fin 256, a (ix2 k d) * w (ix2 n d) := by
  refine (Ideal.matmul_constant_zero_apply dot_S64x256_S10000x256_S64x10000_1_1_0_0_n_n none a w (ix2 k n)).trans ?_
  rw [← Equiv.sum_comp (ValueIdx.contrEquiv1 dot_S64x256_S10000x256_S64x10000_1_1_0_0_n_n 256 rfl rfl).symm]
  refine Finset.sum_congr rfl fun d _ => ?_
  have hd := ValueIdx.contrEquiv1_symm_val dot_S64x256_S10000x256_S64x10000_1_1_0_0_n_n 256 rfl rfl d
  have el : dot_S64x256_S10000x256_S64x10000_1_1_0_0_n_n.lhsIdx (ix2 k n) ((ValueIdx.contrEquiv1 dot_S64x256_S10000x256_S64x10000_1_1_0_0_n_n 256 rfl rfl).symm d) = ix2 k d := funext fun a => Fin.ext (by
    match a with
    | ⟨0, _⟩ => exact lhs_sc_0 _ _
    | ⟨1, _⟩ => exact (lhs_sc_1 _ _).trans hd)
  have er : dot_S64x256_S10000x256_S64x10000_1_1_0_0_n_n.rhsIdx (ix2 k n) ((ValueIdx.contrEquiv1 dot_S64x256_S10000x256_S64x10000_1_1_0_0_n_n 256 rfl rfl).symm d) = ix2 n d := funext fun a => Fin.ext (by
    match a with
    | ⟨0, _⟩ => exact rhs_sc_0 _ _
    | ⟨1, _⟩ => exact (rhs_sc_1 _ _).trans hd)
  rw [el, er]

/-! ## The layers of the first stored value -/

/-- The sixteen-bit zero pattern denotes zero. -/
theorem ofBits_zero_bf16 : Ideal.ofBits .bf16 0x0000#16 = 0 := by simp [Ideal.ofBits, Ideal.ieee]

/-- One dense layer of the block: the product with the weights (their change of format is the identity), at (r, q), is
    the dense layer of the row r of the operand. -/
theorem dense_layer (a : FVec Ideal S5000x256 .bf16) (W : Vec Ideal S256x256 .f32) (r : Fin 5000) (q : Fin 256) :
    matmul (F := Ideal) dot_S5000x256_S256x256_S5000x256_1_0_0_1_n_n none a (truncf .bf16 W bitsLt_bf16_f32) (constant (F := Ideal) S5000x256 .f32 0x00000000#32) (ix2 r q)
      = Cert.Net.dense (Cert.Net.mat W) (fun d => a (ix2 r d)) q :=
  mm_apply a (truncf .bf16 W bitsLt_bf16_f32) r q

/-- One ramp of the block: the maximum with the zero splat, after a change of format, at (r, q). -/
theorem ramp_layer (y : FVec Ideal S5000x256 .f32) (r : Fin 5000) (q : Fin 256) :
    maximumf (truncf .bf16 y bitsLt_bf16_f32) (broadcast S5000x256 (Scalar.ofBits (F := Ideal) .bf16 0x0000#16)) (ix2 r q)
      = max (y (ix2 r q)) 0 := by
  show max (y (ix2 r q)) (Ideal.ofBits .bf16 0x0000#16) = _
  rw [ofBits_zero_bf16]

/-- The first stored value at (r, q): the hidden state of the row r of the loaded block, at q. -/
theorem pay1_apply (v0 : Vec Ideal S1x5000x256 .f32) (v2 v9 v15 v21 : Vec Ideal S256x256 .f32) (r : Fin 5000) (q : Fin 256) :
    k0_pay1 (F := Ideal) v0 v2 v9 v15 v21 (ix2 r q)
      = Cert.Net.hidden (Cert.Net.mat v2) (Cert.Net.mat v9) (Cert.Net.mat v15) (Cert.Net.mat v21) (fun d => v0 (ix3 (0 : Fin 1) r d)) q := by
  unfold k0_pay1 Cert.Net.hidden
  refine (congrFun (shapeCast_self _ _) (ix2 r q)).trans ?_
  refine (dense_layer _ v21 r q).trans ?_
  refine congrArg (fun x => Cert.Net.dense (Cert.Net.mat v21) x q) (funext fun d3 => ?_)
  refine (ramp_layer _ r d3).trans ?_
  refine congrArg (fun t => max t 0) ?_
  refine (dense_layer _ v15 r d3).trans ?_
  refine congrArg (fun x => Cert.Net.dense (Cert.Net.mat v15) x d3) (funext fun d2 => ?_)
  refine (ramp_layer _ r d2).trans ?_
  refine congrArg (fun t => max t 0) ?_
  refine (dense_layer _ v9 r d2).trans ?_
  refine congrArg (fun x => Cert.Net.dense (Cert.Net.mat v9) x d2) (funext fun d1 => ?_)
  refine (ramp_layer _ r d1).trans ?_
  refine congrArg (fun t => max t 0) ?_
  refine (dense_layer _ v2 r d1).trans ?_
  refine congrArg (fun x => Cert.Net.dense (Cert.Net.mat v2) x d1) (funext fun d0 => ?_)
  exact shapeCast_1ab_ab_apply v0 _ r d0

/-! ## The layout steps of the bias, and the second stored value -/

/-- A vector of length a cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The bias column [64, 1] stretched along the nodes reads, at (k, n), the column at (k, 0). -/
theorem broadcastTo_col_apply {α : Type} (x : S64x1.Idx → α) (h : S64x1.Broadcasts S64x10000) (k : Fin 64) (n : Fin 10000) :
    broadcastTo S64x10000 x h (ix2 k n) = x (ix2 k (0 : Fin 1)) :=
  broadcastTo_apply x h _ _ (fun a => by
    match a with
    | ⟨0, _⟩ => rfl
    | ⟨1, _⟩ => rfl)

/-- The second stored value at (0, k, n): the row k of the output weights against the hidden row n, plus the bias of k. -/
theorem pay2_apply (v33 : Vec Ideal S64x256 .f32) (v36 : Vec Ideal S10000x256 .bf16) (v38 : Vec Ideal S1x64 .f32) (k : Fin 64) (n : Fin 10000) :
    k0_pay2 (F := Ideal) v33 v36 v38 (ix3 (0 : Fin 1) k n)
      = (∑ d : Fin 256, v33 (ix2 k d) * v36 (ix2 n d)) + v38 (ix2 (0 : Fin 1) k) := by
  unfold k0_pay2
  refine (shapeCast_ab_1ab_apply _ _ (0 : Fin 1) k n).trans ?_
  show matmul (F := Ideal) dot_S64x256_S10000x256_S64x10000_1_1_0_0_n_n none _ v36 _ (ix2 k n) + broadcastTo S64x10000 _ _ (ix2 k n) = _
  refine congrArg₂ (· + ·) ?_ ?_
  · refine (mmT_apply _ v36 k n).trans ?_
    refine Finset.sum_congr rfl fun d _ => ?_
    refine congrArg (· * v36 (ix2 n d)) ?_
    exact congrFun (shapeCast_self v33 _) (ix2 k d)
  · refine (broadcastTo_col_apply _ _ k n).trans ?_
    refine (shapeCast_a_a1_apply _ _ k (0 : Fin 1)).trans ?_
    exact shapeCast_1a_a_apply v38 _ k

end Cert.KernelIdeal.PayloadRows

end
-- ==== Proof.OutValue.lean ====
import proofs.«176054_g49924699848964_cont_8to1_c_527_19_alg».proof.Proof.FrameRunI
import proofs.«176054_g49924699848964_cont_8to1_c_527_19_alg».proof.Proof.PayloadRows
import proofs.«176054_g49924699848964_cont_8to1_c_527_19_alg».proof.Proof.RowMap
import Idealize.ShloMosaic.Lib.Pipeline.Value
import Idealize.ShloMosaic.Lib.ValueIdx
import Idealize.ShloMosaic.Lib.StableHlo.Run

/-!
  From the blocks to the result array, over the extended reals.

  The grid is 4 × 2: point `t` is batch `t / 2`, half `t % 2`. The output block of batch `b` is written back once,
  after the odd point `2 b + 1`, and holds there, at `(0, k, n)`, score `k` of node `n` of the batch: the row `k` of
  the transposed output weights against the hidden state of the node, plus the bias of `k`. The four blocks tile the
  output array, which therefore ends as the transposed scores of every node; the one transpose after the region
  turns it into the scores themselves.
-/

set_option maxRecDepth 16384

noncomputable section

namespace Cert.KernelIdeal.OutValue

open Cert.KernelIdeal Cert.KernelIdeal.Gen Cert.KernelIdeal.Carried Cert.KernelIdeal.FrameRun Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores of every node as a function of the arguments at launch. -/
def res (c : Dev nD) : S4x10000x64.Idx → EReal :=
  Cert.Net.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The same, transposed: what the region's result array ends holding. -/
def resT (c : Dev nD) : S4x64x10000.Idx → EReal := fun i => res m c (ix3 (i 0) (i 2) (i 1))

/-! ## The index maps, decided over the grid -/

/-- The output block and the node block of point `t` are those of batch `t / 2`; the node block is half `t % 2`. -/
theorem idx_facts : ∀ t : Fin cfg0.N, win0_7.index t (0 : Fin 3) = t.val / 2 ∧ win0_7.index t (1 : Fin 3) = 0
    ∧ win0_7.index t (2 : Fin 3) = 0 ∧ win0_0.index t (0 : Fin 3) = t.val / 2 ∧ win0_0.index t (1 : Fin 3) = t.val % 2
    ∧ win0_0.index t (2 : Fin 3) = 0 :=
  (by decide +kernel : ∀ t : Fin grid0.N, win0_7.index t (0 : Fin 3) = t.val / 2 ∧ win0_7.index t (1 : Fin 3) = 0
    ∧ win0_7.index t (2 : Fin 3) = 0 ∧ win0_0.index t (0 : Fin 3) = t.val / 2 ∧ win0_0.index t (1 : Fin 3) = t.val % 2
    ∧ win0_0.index t (2 : Fin 3) = 0)

/-- The weight, bias and transposed-weight windows are their whole arrays at every point. -/
theorem idx_zero : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0))

/-! ## The input blocks read at an index -/

/-- The node block of point `t` at `(0, r, d)`: feature `d` of node `5000 · (t % 2) + r` of batch `t / 2`. -/
theorem blk0_apply (c : Dev nD) (t : Fin cfg0.N) (r : Fin 5000) (d : Fin 256) (b : Fin 4) (n : Fin 10000)
    (hb : b.val = t.val / 2) (hn : n.val = 5000 * (t.val % 2) + r.val) :
    blk0 m c t (ix3 (0 : Fin 1) r d) = m ((c : Thread nD τ).loc main_arg0) (ix3 b n d) := by
  unfold blk0 iblk
  rw [View.read_apply]
  show V m c main_arg0 (((cfg0.win 0).blk t).view.emb (ix3 (0 : Fin 1) r d)) = _
  rw [V_main_arg0]
  obtain ⟨e0, e1, e2, e3, e4, e5⟩ := idx_facts t
  refine congrArg _ (funext fun a => Fin.ext ?_)
  match a with
  | ⟨0, _⟩ => show win0_0.index t (0 : Fin 3) * 1 + 1 * 0 = b.val; omega
  | ⟨1, _⟩ => show win0_0.index t (1 : Fin 3) * 5000 + 1 * r.val = n.val; omega
  | ⟨2, _⟩ => show win0_0.index t (2 : Fin 3) * 256 + 1 * d.val = d.val; omega

/-- A weight window's block is its whole array as launched. -/
theorem blk1_eq (c : Dev nD) (t : Fin cfg0.N) : blk1 m c t = m ((c : Thread nD τ).loc main_arg1) := by
  funext y
  unfold blk1 iblk
  rw [View.read_apply]
  show V m c main_arg1 (((cfg0.win 1).blk t).view.emb y) = _
  rw [V_main_arg1]
  obtain ⟨⟨e0, e1⟩, -⟩ := idx_zero t
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega
theorem blk2_eq (c : Dev nD) (t : Fin cfg0.N) : blk2 m c t = m ((c : Thread nD τ).loc main_arg2) := by
  funext y
  unfold blk2 iblk
  rw [View.read_apply]
  show V m c main_arg2 (((cfg0.win 2).blk t).view.emb y) = _
  rw [V_main_arg2]
  obtain ⟨-, ⟨e0, e1⟩, -⟩ := idx_zero t
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem blk3_eq (c : Dev nD) (t : Fin cfg0.N) : blk3 m c t = m ((c : Thread nD τ).loc main_arg3) := by
  funext y
  unfold blk3 iblk
  rw [View.read_apply]
  show V m c main_arg3 (((cfg0.win 3).blk t).view.emb y) = _
  rw [V_main_arg3]
  obtain ⟨-, -, ⟨e0, e1⟩, -⟩ := idx_zero t
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem blk4_eq (c : Dev nD) (t : Fin cfg0.N) : blk4 m c t = m ((c : Thread nD τ).loc main_arg4) := by
  funext y
  unfold blk4 iblk
  rw [View.read_apply]
  show V m c main_arg4 (((cfg0.win 4).blk t).view.emb y) = _
  rw [V_main_arg4]
  obtain ⟨-, -, -, ⟨e0, e1⟩, -⟩ := idx_zero t
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The array the fifth window stages is the output weights transposed, -/
theorem V_main_v0 (c : Dev nD) : (V m c main_v0 : S64x256.Idx → EReal)
    = transpose S64x256 [1, 0] (m ((c : Thread nD τ).loc main_arg5)) transposes_S256x64_S64x256_1_0 := by
  show StableHlo.after hostOps0 (fun b => m (c, b)) (Proc.devRef .tc main_v0) = _
  after_results
/-- and the one the sixth stages is the bias as a row. -/
theorem V_main_v1 (c : Dev nD) : (V m c main_v1 : S1x64.Idx → EReal)
    = shapeCast S1x64 (m ((c : Thread nD τ).loc main_arg6)) shapeCasts_S64_S1x64 := by
  show StableHlo.after hostOps0 (fun b => m (c, b)) (Proc.devRef .tc main_v1) = _
  after_results
  rfl

/-- The transposed-weight block at `(k, d)` is the output weight `(d, k)`. -/
theorem blk5_apply (c : Dev nD) (t : Fin cfg0.N) (k : Fin 64) (d : Fin 256) :
    blk5 m c t (ix2 k d) = m ((c : Thread nD τ).loc main_arg5) (ix2 d k) := by
  unfold blk5 iblk
  rw [View.read_apply]
  show V m c main_v0 (((cfg0.win 5).blk t).view.emb (ix2 k d)) = _
  rw [V_main_v0]
  obtain ⟨-, -, -, -, ⟨e0, e1⟩, -⟩ := idx_zero t
  refine transpose_apply _ _ _ _ _ (fun b => ?_)
  match b with
  | ⟨0, _⟩ => show k.val = win0_5.index t (0 : Fin 2) * 64 + 1 * k.val; omega
  | ⟨1, _⟩ => show d.val = win0_5.index t (1 : Fin 2) * 256 + 1 * d.val; omega

/-- The bias block at `(0, k)` is the bias of `k`. -/
theorem blk6_apply (c : Dev nD) (t : Fin cfg0.N) (k : Fin 64) :
    blk6 m c t (ix2 (0 : Fin 1) k) = m ((c : Thread nD τ).loc main_arg6) (ix1 k) := by
  unfold blk6 iblk
  rw [View.read_apply]
  show V m c main_v1 (((cfg0.win 6).blk t).view.emb (ix2 (0 : Fin 1) k)) = _
  rw [V_main_v1]
  obtain ⟨-, -, -, -, -, ⟨e0, e1⟩⟩ := idx_zero t
  refine shapeCast_apply _ _ _ _ ?_
  rw [Shape.rowMajor_val_two]
  show (S64.rowMajor (ix1 k)).val = _
  rw [Shape.rowMajor_val_one]
  show k.val = (win0_6.index t (0 : Fin 2) * 1 + 1 * 0) * 64 + (win0_6.index t (1 : Fin 2) * 64 + 1 * k.val)
  omega

/-! ## What a point stores, at an index -/

/-- The hidden state a point computes, at `(r, q)`: that of node `5000 · (t % 2) + r` of batch `t / 2`. -/
theorem hid_apply (c : Dev nD) (t : Fin cfg0.N) (r : Fin 5000) (q : Fin 256) (b : Fin 4) (n : Fin 10000)
    (hb : b.val = t.val / 2) (hn : n.val = 5000 * (t.val % 2) + r.val) :
    hid m c t (ix2 r q) = Cert.Net.hidden (Cert.Net.mat (m ((c : Thread nD τ).loc main_arg1)))
      (Cert.Net.mat (m ((c : Thread nD τ).loc main_arg2))) (Cert.Net.mat (m ((c : Thread nD τ).loc main_arg3)))
      (Cert.Net.mat (m ((c : Thread nD τ).loc main_arg4))) (fun d => m ((c : Thread nD τ).loc main_arg0) (ix3 b n d)) q := by
  unfold hid
  rw [PayloadRows.pay1_apply, blk1_eq, blk2_eq, blk3_eq, blk4_eq]
  refine congrArg (fun x => Cert.Net.hidden _ _ _ _ x q) (funext fun d => ?_)
  exact blk0_apply m c t r d b n hb hn

/-- The whole batch's hidden state as an odd point finds it, at `(n, q)`: that of node `n` of the batch. -/
theorem hidBoth_apply (c : Dev nD) (t : Fin cfg0.N) (ht : t.val % 2 = 1) (n : Fin 10000) (q : Fin 256) (b : Fin 4)
    (hb : b.val = t.val / 2) :
    hidBoth m c t (ix2 n q) = Cert.Net.hidden (Cert.Net.mat (m ((c : Thread nD τ).loc main_arg1)))
      (Cert.Net.mat (m ((c : Thread nD τ).loc main_arg2))) (Cert.Net.mat (m ((c : Thread nD τ).loc main_arg3)))
      (Cert.Net.mat (m ((c : Thread nD τ).loc main_arg4))) (fun d => m ((c : Thread nD τ).loc main_arg0) (ix3 b n d)) q := by
  unfold hidBoth
  by_cases h : n.val < 5000
  · rw [dif_pos (show ((ix2 n q : S10000x256.Idx) 0).val < 5000 from h)]
    exact hid_apply m c (prev t) ⟨n.val, h⟩ q b n (by show b.val = (t.val - 1) / 2; omega)
      (by show n.val = 5000 * ((t.val - 1) % 2) + n.val; omega)
  · rw [dif_neg (show ¬ ((ix2 n q : S10000x256.Idx) 0).val < 5000 from h)]
    have hn : n.val < 10000 := n.isLt
    exact hid_apply m c t ⟨n.val - 5000, by omega⟩ q b n hb (by show n.val = 5000 * (t.val % 2) + (n.val - 5000); omega)

/-- What an odd point stores into the output block, at `(0, k, n)`: score `k` of node `n` of the batch. -/
theorem outBlk_apply (c : Dev nD) (t : Fin cfg0.N) (ht : t.val % 2 = 1) (k : Fin 64) (n : Fin 10000) (b : Fin 4)
    (hb : b.val = t.val / 2) :
    outBlk m c t (ix3 (0 : Fin 1) k n) = res m c (ix3 b n k) := by
  unfold outBlk
  rw [PayloadRows.pay2_apply, blk6_apply]
  unfold res Cert.Net.result Cert.Net.scores
  refine congrArg₂ (· + ·) (Finset.sum_congr rfl fun d _ => ?_) rfl
  rw [blk5_apply, hidBoth_apply m c t ht n d b hb]
  exact mul_comm _ _

/-! ## The write-backs, and the array after the region -/

/-- What an odd point stores at `(0, k, n)` is the transposed scores at the index under it, `(t / 2, k, n)`. -/
theorem outBlk_emb (c : Dev nD) (t : Fin cfg0.N) (ht : t.val % 2 = 1) (k : Fin 64) (n : Fin 10000) :
    outBlk m c t (ix3 (0 : Fin 1) k n) = resT m c (((cfg0.win 7).blk t).view.emb (ix3 (0 : Fin 1) k n)) := by
  have htlt : t.val < 8 := lt_of_lt_of_eq t.isLt N_0
  obtain ⟨e0, e1, e2, -⟩ := idx_facts t
  rw [outBlk_apply m c t ht k n ⟨t.val / 2, by omega⟩ rfl]
  unfold resT
  refine congrArg (res m c) (funext fun a => Fin.ext ?_)
  match a with
  | ⟨0, _⟩ => show t.val / 2 = win0_7.index t (0 : Fin 3) * 1 + 1 * 0; omega
  | ⟨1, _⟩ => show n.val = win0_7.index t (2 : Fin 3) * 10000 + 1 * n.val; omega
  | ⟨2, _⟩ => show k.val = win0_7.index t (1 : Fin 3) * 64 + 1 * k.val; omega

/-- The same at any index of the block. -/
theorem outBlk_emb' (c : Dev nD) (t : Fin cfg0.N) (ht : t.val % 2 = 1) (j : S1x64x10000.Idx) :
    outBlk m c t j = resT m c (((cfg0.win 7).blk t).view.emb j) := by
  have hj : j = ix3 (0 : Fin 1) (j 1) (j 2) := funext fun a => by
    match a with
    | ⟨0, _⟩ => exact Fin.ext (by show (j 0).val = 0; have h : (j 0).val < 1 := (j 0).isLt; omega)
    | ⟨1, _⟩ => rfl
    | ⟨2, _⟩ => rfl
  rw [hj]
  exact outBlk_emb m c t ht (j 1) (j 2)

/-- What an odd point writes back is its block of the transposed scores. -/
theorem flushed7_eq (c : Dev nD) (t : Fin cfg0.N) (hf : (cfg0.win 7).flush t = true) :
    (dats m 0 c).flushed 7 t = ((cfg0.win 7).blk t).view.read (Elt Ideal) (resT m c) := by
  have ht : t.val % 2 = 1 := (flush0_7 t).mp hf
  show (cfg0.win 7).cut (grid0.coords t) ((dats m 0 c).after 7 t) = _
  rw [after7]
  funext j
  rw [View.read_apply]
  exact outBlk_emb' m c t ht j

/-- An index of the output array is in point `t`'s block iff each coordinate is in the block's range on its axis. -/
theorem mem_blk7 (t : Fin cfg0.N) (i : S4x64x10000.Idx) :
    i ∈ ((cfg0.win 7).blk t).view.set ↔ ∀ a : Fin 3, win0_7.index t a * S1x64x10000.size a ≤ (i a).val ∧ (i a).val < win0_7.index t a * S1x64x10000.size a + S1x64x10000.size a := by
  show i ∈ ((View.whole main_v2).slice (win0_7.rect t)).set ↔ _
  rw [View.set_slice_whole, Rect.mem_set_unit]
  exact Iff.rfl

/-- The four written blocks tile the output array: index `i` lies in the block of the odd point of batch `i 0`. -/
theorem cover7 (i : S4x64x10000.Idx) :
    ∃ t : Fin cfg0.N, (cfg0.win 7).flush t = true ∧ i ∈ ((cfg0.win 7).blk t).view.set := by
  have hN : grid0.N = 8 := N_0
  have h0 : (i 0).val < 4 := (i 0).isLt
  have h1 : (i 1).val < 64 := (i 1).isLt
  have h2 : (i 2).val < 10000 := (i 2).isLt
  let t : Fin cfg0.N := ⟨2 * (i 0).val + 1, by show 2 * (i 0).val + 1 < grid0.N; omega⟩
  have htv : t.val = 2 * (i 0).val + 1 := rfl
  refine ⟨t, (flush0_7 t).mpr (by omega), ?_⟩
  obtain ⟨e0, e1, e2, -⟩ := idx_facts t
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 64 ≤ (i 1).val ∧ (i 1).val < win0_7.index t (1 : Fin 3) * 64 + 64; omega
  | ⟨2, _⟩ => show win0_7.index t (2 : Fin 3) * 10000 ≤ (i 2).val ∧ (i 2).val < win0_7.index t (2 : Fin 3) * 10000 + 10000; omega

/-- So the output array ends holding the transposed scores. -/
theorem final7 (c : Dev nD) : (dats m 0 c).arrAt 7 cfg0.N = resT m c :=
  (dats m 0 c).arrAt_eq_of_cover 7 (resT m c) (fun t hf => flushed7_eq m c t hf) cover7

/-! ## The run -/

/-- The result array after the lines that follow the region: the transpose of the output array, which is the scores. -/
theorem tail_main_v3 (c : Dev nD) :
    Pipeline.afterTail₀ cfgs (dats m) 0 (V0 m) [hostOps1] c main_v3 = res m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = resT m c := (Pipeline.withArrays_arr spec0 launch0.win.arr_inj c _ _ 7).trans (final7 m c)
  rw [e]
  funext i
  refine (transpose_apply _ _ _ i (ix3 (i 0) (i 2) (i 1)) (fun b => ?_)).trans ?_
  · match b with
    | ⟨0, _⟩ => rfl
    | ⟨1, _⟩ => rfl
    | ⟨2, _⟩ => rfl
  · unfold resT
    exact congrArg (res m c) (eq_ix3 i).symm

/-- Every weakly fair execution of the program terminates with the result array at the scores of every node and the
    argument arrays as launched. -/
theorem run : θ_run defs (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v3 (Pipeline.mem_restRefs_of main_v3 (by decide) (by decide))).trans (tail_main_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.OutValue

end
-- ==== Proof.RefRows.lean ====
import proofs.«176054_g49924699848964_cont_8to1_c_527_19_alg».proof.Proof.Gen.ReferenceIdeal.Read
import proofs.«176054_g49924699848964_cont_8to1_c_527_19_alg».proof.Proof.RowMap

/-!
  The reference program computes the row map of `Cert.Net`.

  The reference is a chain of five contractions over the feature axis, with a ramp after each of the first three and a
  bias added after the last. At entry `(b, n, c)` a contraction sums, over `k`, the stage before at `(b, n, k)` times
  the weight at `(k, c)`: a dense layer applied to row `(b, n)` of the stage before. Stage by stage this builds
  `Cert.Net.hidden` of the input's row and then its `Cert.Net.scores`.
-/

noncomputable section

namespace Cert.ReferenceIdeal.RefRows

open Cert.ReferenceIdeal Cert.ReferenceIdeal.Read Cert.Net Idealize.ShloMosaic Idealize.ShloMosaic.ValueIdx

/-! ### Where each operation reads its operands

  At entry `(b, n, c)`, step `k` of a contraction reads its left operand at `(b, n, k)` and its right operand at
  `(k, c)`; the bias, broadcast along the batch and node axes, is read at `c`. -/

theorem l0 (b : Fin 4) (n : Fin 10000) (c k : Fin 256) : lidx_main_v0 (ix3 b n c) k = ix3 b n k :=
  funext fun a => by match a with | ⟨0, _⟩ => rfl | ⟨1, _⟩ => rfl | ⟨2, _⟩ => rfl
theorem r0 (b : Fin 4) (n : Fin 10000) (c k : Fin 256) : ridx_main_v0 (ix3 b n c) k = ix2 k c :=
  funext fun a => by match a with | ⟨0, _⟩ => rfl | ⟨1, _⟩ => rfl
theorem l2 (b : Fin 4) (n : Fin 10000) (c k : Fin 256) : lidx_main_v2 (ix3 b n c) k = ix3 b n k :=
  funext fun a => by match a with | ⟨0, _⟩ => rfl | ⟨1, _⟩ => rfl | ⟨2, _⟩ => rfl
theorem r2 (b : Fin 4) (n : Fin 10000) (c k : Fin 256) : ridx_main_v2 (ix3 b n c) k = ix2 k c :=
  funext fun a => by match a with | ⟨0, _⟩ => rfl | ⟨1, _⟩ => rfl
theorem l4 (b : Fin 4) (n : Fin 10000) (c k : Fin 256) : lidx_main_v4 (ix3 b n c) k = ix3 b n k :=
  funext fun a => by match a with | ⟨0, _⟩ => rfl | ⟨1, _⟩ => rfl | ⟨2, _⟩ => rfl
theorem r4 (b : Fin 4) (n : Fin 10000) (c k : Fin 256) : ridx_main_v4 (ix3 b n c) k = ix2 k c :=
  funext fun a => by match a with | ⟨0, _⟩ => rfl | ⟨1, _⟩ => rfl
theorem l6 (b : Fin 4) (n : Fin 10000) (c k : Fin 256) : lidx_main_v6 (ix3 b n c) k = ix3 b n k :=
  funext fun a => by match a with | ⟨0, _⟩ => rfl | ⟨1, _⟩ => rfl | ⟨2, _⟩ => rfl
theorem r6 (b : Fin 4) (n : Fin 10000) (c k : Fin 256) : ridx_main_v6 (ix3 b n c) k = ix2 k c :=
  funext fun a => by match a with | ⟨0, _⟩ => rfl | ⟨1, _⟩ => rfl
theorem l7 (b : Fin 4) (n : Fin 10000) (c : Fin 64) (k : Fin 256) : lidx_main_v7 (ix3 b n c) k = ix3 b n k :=
  funext fun a => by match a with | ⟨0, _⟩ => rfl | ⟨1, _⟩ => rfl | ⟨2, _⟩ => rfl
theorem r7 (b : Fin 4) (n : Fin 10000) (c : Fin 64) (k : Fin 256) : ridx_main_v7 (ix3 b n c) k = ix2 k c :=
  funext fun a => by match a with | ⟨0, _⟩ => rfl | ⟨1, _⟩ => rfl
theorem i8 (b : Fin 4) (n : Fin 10000) (c : Fin 64) : idx_main_v8 (idx_main_v9 (ix3 b n c)) = ix1 c :=
  funext fun a => by match a with | ⟨0, _⟩ => rfl

/-! ### The ramp's zero

  Each ramp compares with the scalar zero word broadcast to every entry; the zero word is the extended real `0`. -/

theorem z0 (i : S4x10000x256.Idx) : val_main_call0_v0 (F := Ideal) i = (0 : EReal) := by
  rw [val_main_call0_v0_apply, val_main_call0_cst_apply, Ideal.ofBits_def, Ideal.ofBits_zero_f32]
theorem z1 (i : S4x10000x256.Idx) : val_main_call1_v0 (F := Ideal) i = (0 : EReal) := by
  rw [val_main_call1_v0_apply, val_main_call1_cst_apply, Ideal.ofBits_def, Ideal.ofBits_zero_f32]
theorem z2 (i : S4x10000x256.Idx) : val_main_call2_v0 (F := Ideal) i = (0 : EReal) := by
  rw [val_main_call2_v0_apply, val_main_call2_cst_apply, Ideal.ofBits_def, Ideal.ofBits_zero_f32]

/-! ### The stages, one row at a time -/

/-- After the first ramp, entry `(b, n, c)` is entry `c` of the ramp of the first dense layer on row `(b, n)` of the input. -/
theorem s1 (x0 : (⟨S4x10000x256, .f32⟩ : BufTy).Contents (Elt Ideal)) (x1 : (⟨S256x256, .f32⟩ : BufTy).Contents (Elt Ideal))
    (b : Fin 4) (n : Fin 10000) (c : Fin 256) :
    val_main_v1 (F := Ideal) x0 x1 (ix3 b n c) = ramp (dense (mat x1) fun d => x0 (ix3 b n d)) c := by
  rw [val_main_v1_apply, val_main_v0_apply, z0, Ideal.maximumf_def]
  simp only [l0, r0]
  rfl

/-- After the second ramp: two dense layers, a ramp after each, on the same row. -/
theorem s3 (x0 : (⟨S4x10000x256, .f32⟩ : BufTy).Contents (Elt Ideal)) (x1 x2 : (⟨S256x256, .f32⟩ : BufTy).Contents (Elt Ideal))
    (b : Fin 4) (n : Fin 10000) (c : Fin 256) :
    val_main_v3 (F := Ideal) x0 x1 x2 (ix3 b n c)
      = ramp (dense (mat x2) (ramp (dense (mat x1) fun d => x0 (ix3 b n d)))) c := by
  rw [val_main_v3_apply, val_main_v2_apply, z1, Ideal.maximumf_def]
  simp only [l2, r2, s1]
  rfl

/-- After the third ramp: three dense layers, a ramp after each. -/
theorem s5 (x0 : (⟨S4x10000x256, .f32⟩ : BufTy).Contents (Elt Ideal)) (x1 x2 x3 : (⟨S256x256, .f32⟩ : BufTy).Contents (Elt Ideal))
    (b : Fin 4) (n : Fin 10000) (c : Fin 256) :
    val_main_v5 (F := Ideal) x0 x1 x2 x3 (ix3 b n c)
      = ramp (dense (mat x3) (ramp (dense (mat x2) (ramp (dense (mat x1) fun d => x0 (ix3 b n d)))))) c := by
  rw [val_main_v5_apply, val_main_v4_apply, z2, Ideal.maximumf_def]
  simp only [l4, r4, s3]
  rfl

/-- The fourth contraction, with no ramp after it, completes the node's hidden state. -/
theorem s6 (x0 : (⟨S4x10000x256, .f32⟩ : BufTy).Contents (Elt Ideal)) (x1 x2 x3 x4 : (⟨S256x256, .f32⟩ : BufTy).Contents (Elt Ideal))
    (b : Fin 4) (n : Fin 10000) (c : Fin 256) :
    val_main_v6 (F := Ideal) x0 x1 x2 x3 x4 (ix3 b n c)
      = hidden (mat x1) (mat x2) (mat x3) (mat x4) (fun d => x0 (ix3 b n d)) c := by
  rw [val_main_v6_apply]
  simp only [l6, r6, s5]
  rfl

/-- The reference's result is the row map applied to every (batch, node) row: the last contraction and the broadcast
    bias are the scores of the hidden state. -/
theorem ref_eq (x0 : (⟨S4x10000x256, .f32⟩ : BufTy).Contents (Elt Ideal)) (x1 x2 x3 x4 : (⟨S256x256, .f32⟩ : BufTy).Contents (Elt Ideal)) (x5 : (⟨S256x64, .f32⟩ : BufTy).Contents (Elt Ideal)) (x6 : (⟨S64, .f32⟩ : BufTy).Contents (Elt Ideal)) :
    Cert.ReferenceIdeal.Read.val_main_v10 (F := Ideal) x0 x1 x2 x3 x4 x5 x6 = Cert.Net.result x0 x1 x2 x3 x4 x5 x6 := by
  funext i
  obtain ⟨b, n, k, rfl⟩ : ∃ b n k, i = ValueIdx.ix3 b n k := ⟨i 0, i 1, i 2, ValueIdx.eq_ix3 i⟩
  rw [val_main_v10_apply, val_main_v7_apply, val_main_v9_apply, val_main_v8_apply, Ideal.addf_def, i8]
  simp only [l7, r7, s6]
  rfl

end Cert.ReferenceIdeal.RefRows

end
-- ==== Proof.lean ====
import proofs.«176054_g49924699848964_cont_8to1_c_527_19_alg».proof.Defs
import proofs.«176054_g49924699848964_cont_8to1_c_527_19_alg».proof.Proof.Gen.Kernel
import proofs.«176054_g49924699848964_cont_8to1_c_527_19_alg».proof.Proof.Gen.KernelIdeal
import proofs.«176054_g49924699848964_cont_8to1_c_527_19_alg».proof.Proof.Gen.ReferenceIdeal
import proofs.«176054_g49924699848964_cont_8to1_c_527_19_alg».proof.Proof.Gen.Pre_finite_inputs
import proofs.«176054_g49924699848964_cont_8to1_c_527_19_alg».proof.Proof.Gen.ReferenceIdeal.Run
import proofs.«176054_g49924699848964_cont_8to1_c_527_19_alg».proof.Proof.Gen.ReferenceIdeal.Read
import proofs.«176054_g49924699848964_cont_8to1_c_527_19_alg».proof.Proof.FrameRunB
import proofs.«176054_g49924699848964_cont_8to1_c_527_19_alg».proof.Proof.FrameRunI
import proofs.«176054_g49924699848964_cont_8to1_c_527_19_alg».proof.Proof.OutValue
import proofs.«176054_g49924699848964_cont_8to1_c_527_19_alg».proof.Proof.RefRows
import Idealize.ShloMosaic.Adequacy
import Idealize.ShloMosaic.Init

/-!
  A node-wise network — four dense layers, a ramp after each of the first three, then a dense scoring layer with a
  bias — applied to 4 batches of 10000 nodes.

  The kernel walks a 4 × 2 grid: each point computes the hidden state of 5000 nodes and parks it in a buffer it keeps
  across points; the second point of a batch then scores all 10000 nodes of the batch at once, transposed, and one
  transpose after the region puts the scores back in node-major order. The reference applies the same five matrix
  products to the whole input. Over the extended reals a change of float format is the identity and a sum does not
  depend on how it is tiled, so both are the one row map `Cert.Net.result`; the only law used between the two sides
  is that a product commutes (the kernel multiplies the scoring weights on the left). No finiteness is needed.

  The frames: both the word-level and the idealized kernel run to completion with the argument arrays unchanged,
  by the same run of the body at each grid point, the carried buffer described by an invariant between points.
-/

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.FrameRun.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.FrameRun.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the scores `Cert.Net.result` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.OutValue.res m c, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefRows.ref_eq,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
